-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64 .f32) (main_arg4 : FVec F S64 .f32) (main_arg5 : FVec F S64x64 .f32) (main_arg6 : FVec F S64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S10000x64 : Shape := ⟨2, ![10000, 64]⟩
abbrev S1300000x64 : Shape := ⟨2, ![1300000, 64]⟩
abbrev S1x64 : Shape := ⟨2, ![1, 64]⟩

abbrev nBuf : Space → Nat
  | .hbm => 88
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S100000x64, .f32⟩
  | .hbm, ⟨49, _⟩ => ⟨S_, .i32⟩
  | .hbm, ⟨50, _⟩ => ⟨S1300000, .i32⟩
  | .hbm, ⟨51, _⟩ => ⟨S1300000, .i1⟩
  | .hbm, ⟨52, _⟩ => ⟨S_, .i32⟩
  | .hbm, ⟨53, _⟩ => ⟨S1300000, .i32⟩
  | .hbm, ⟨54, _⟩ => ⟨S1300000, .i32⟩
  | .hbm, ⟨55, _⟩ => ⟨S1300000, .i32⟩
  | .hbm, ⟨56, _⟩ => ⟨S1300000x1, .i32⟩
  | .hbm, ⟨57, _⟩ => ⟨S1300000x64, .f32⟩
  | .hbm, ⟨58, _⟩ => ⟨S1300000x1, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S100000x64, .f32⟩
  | .hbm, ⟨63, _⟩ => ⟨S1300000x1, .i32⟩
  | .hbm, ⟨64, _⟩ => ⟨S100000x64, .f32⟩
  | .hbm, ⟨65, _⟩ => ⟨S1x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1300000, .i32⟩
  | .hbm, ⟨71, _⟩ => ⟨S1300000, .i1⟩
  | .hbm, ⟨72, _⟩ => ⟨S_, .i32⟩
  | .hbm, ⟨73, _⟩ => ⟨S1300000, .i32⟩
  | .hbm, ⟨74, _⟩ => ⟨S1300000, .i32⟩
  | .hbm, ⟨75, _⟩ => ⟨S1300000, .i32⟩
  | .hbm, ⟨76, _⟩ => ⟨S1300000x1, .i32⟩
  | .hbm, ⟨77, _⟩ => ⟨S1300000x64, .f32⟩
  | .hbm, ⟨78, _⟩ => ⟨S1300000x1, .f32⟩
  | .hbm, ⟨79, _⟩ => ⟨S1300000x64, .f32⟩
  | .hbm, ⟨80, _⟩ => ⟨S1300000x64, .f32⟩
  | .hbm, ⟨81, _⟩ => ⟨S_, .f32⟩
  | .hbm, ⟨82, _⟩ => ⟨S100000x64, .f32⟩
  | .hbm, ⟨83, _⟩ => ⟨S1300000x1, .i32⟩
  | .hbm, ⟨84, _⟩ => ⟨S100000x64, .f32⟩
  | .hbm, ⟨85, _⟩ => ⟨S1x64, .f32⟩
  | .hbm, ⟨86, _⟩ => ⟨S1x64, .f32⟩
  | .hbm, ⟨87, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S100000x64, .f32⟩
  | .hbm, ⟨49, _⟩ => ⟨S_, .i32⟩
  | .hbm, ⟨50, _⟩ => ⟨S1300000, .i32⟩
  | .hbm, ⟨51, _⟩ => ⟨S1300000, .i1⟩
  | .hbm, ⟨52, _⟩ => ⟨S_, .i32⟩
  | .hbm, ⟨53, _⟩ => ⟨S1300000, .i32⟩
  | .hbm, ⟨54, _⟩ => ⟨S1300000, .i32⟩
  | .hbm, ⟨55, _⟩ => ⟨S1300000, .i32⟩
  | .hbm, ⟨56, _⟩ => ⟨S1300000x1, .i32⟩
  | .hbm, ⟨57, _⟩ => ⟨S1300000x64, .f32⟩
  | .hbm, ⟨58, _⟩ => ⟨S1300000x1, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S100000x64, .f32⟩
  | .hbm, ⟨63, _⟩ => ⟨S1300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .i1⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1300000, .i32⟩
  | .hbm, ⟨78, _⟩ => ⟨S1300000, .i1⟩
  | .hbm, ⟨79, _⟩ => ⟨S_, .i32⟩
  | .hbm, ⟨80, _⟩ => ⟨S1300000, .i32⟩
  | .hbm, ⟨81, _⟩ => ⟨S1300000, .i32⟩
  | .hbm, ⟨82, _⟩ => ⟨S1300000, .i32⟩
  | .hbm, ⟨83, _⟩ => ⟨S1300000x1, .i32⟩
  | .hbm, ⟨84, _⟩ => ⟨S1300000x64, .f32⟩
  | .hbm, ⟨85, _⟩ => ⟨S1300000x1, .f32⟩
  | .hbm, ⟨86, _⟩ => ⟨S1300000x64, .f32⟩
  | .hbm, ⟨87, _⟩ => ⟨S1300000x64, .f32⟩
  | .hbm, ⟨88, _⟩ => ⟨S_, .f32⟩
  | .hbm, ⟨89, _⟩ => ⟨S100000x64, .f32⟩
  | .hbm, ⟨90, _⟩ => ⟨S1300000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .i1⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.Spec.lean ====
/-
  The mathematics both programs compute, layer by layer, on the extended reals.

  A graph-convolution layer is  act (agg (lin h W)) b a :  `lin` the dense projection h·W (row r, column q:
  the sum over k of h[r,k]·W[k,q]), `agg` the gather / scale / scatter-add along the edges (the same host
  operations in both programs, never opened here), and `act` the bias and the per-channel PReLU:
  with v = z[r,q] + b[q], the value v where v ≥ 0 and a[q]·v elsewhere.  This module states `lin` and `act`
  index by index over the literal shapes; it imports no program.
-/
import Idealize.ShloMosaic.PureOps.Ideal
import Idealize.ShloMosaic.Lib.ValueIdx

noncomputable section

namespace Cert.Spec

open Idealize.ShloMosaic

/-- [100000, 64]: one row of 64 features per node. -/
abbrev SN : Shape := ⟨2, ![100000, 64]⟩
/-- [64, 64]: a layer's weights. -/
abbrev SW : Shape := ⟨2, ![64, 64]⟩
/-- [1, 64]: a per-channel vector as the one-row matrix the second kernel is handed. -/
abbrev SRow : Shape := ⟨2, ![1, 64]⟩
/-- [64]: a per-channel vector. -/
abbrev SC : Shape := ⟨1, ![64]⟩

/-- Entry (r, k) of the left operand, for the output index i = (r, q). -/
abbrev lhsAt (i : SN.Idx) (k : Fin 64) : SN.Idx := fun a => match a with
  | ⟨0, _⟩ => ⟨(i 0).val, (i 0).isLt⟩
  | ⟨1, _⟩ => ⟨k.val, k.isLt⟩
/-- Entry (k, q) of the right operand, for the output index i = (r, q). -/
abbrev rhsAt (i : SN.Idx) (k : Fin 64) : SW.Idx := fun a => match a with
  | ⟨0, _⟩ => ⟨k.val, k.isLt⟩
  | ⟨1, _⟩ => ⟨(i 1).val, (i 1).isLt⟩

/-- The dense projection x·w: entry (r, q) is the sum over k of x[r,k]·w[k,q]. -/
def lin (x : SN.Idx → EReal) (w : SW.Idx → EReal) : SN.Idx → EReal :=
  fun i => ∑ k : Fin 64, x (lhsAt i k) * w (rhsAt i k)

/-- The channel (0, q) of a one-row matrix, for the index i = (r, q). -/
abbrev chanAt (i : SN.Idx) : SRow.Idx := fun a => match a with
  | ⟨0, _⟩ => ⟨0, Nat.one_pos⟩
  | ⟨1, _⟩ => ⟨(i 1).val, (i 1).isLt⟩

/-- Bias and per-channel PReLU with the bias `b` and the slope `a` given as one-row matrices: with
    v = z[r,q] + b[0,q], the value is v where v ≥ 0 (the ordered comparison against zero) and a[0,q]·v elsewhere. -/
def act (z : SN.Idx → EReal) (b a : SRow.Idx → EReal) : SN.Idx → EReal :=
  fun i => Scalar.select (FloatOps.cmpf (F := Ideal) (φ := .f32) .oge (z i + b (chanAt i)) (Ideal.ofBits .f32 0x00000000#32))
    (z i + b (chanAt i)) (a (chanAt i) * (z i + b (chanAt i)))

/-- A per-channel vector laid out as a one-row matrix: entry (0, q) is entry q. -/
def row (b : SC.Idx → EReal) : SRow.Idx → EReal :=
  fun j => b (fun a => match a with | ⟨0, _⟩ => ⟨(j 1).val, (j 1).isLt⟩)

end Cert.Spec

end
-- ==== Proof.Glue.lean ====
/-
  The edge stage of a layer, which both programs run on the host with the same operations: gather the rows
  h[src], scale row e by norm[e], and scatter-add the rows into agg[dst] from zero. `src` is first wrapped the
  NumPy way (a negative index has the node count added). The stage is carried as ONE function of the features
  and of the three edge vectors and is never opened: the two programs are compared on what goes into it.
  Likewise the reshape of a per-channel vector into a one-row matrix is read at an index once, here.
-/
import proofs.«135357_j1623497638364_1_alg».proof.ReferenceIdeal
import proofs.«135357_j1623497638364_1_alg».proof.Proof.Gen.ReferenceIdeal
import proofs.«135357_j1623497638364_1_alg».proof.Proof.Spec
import Idealize.ShloMosaic.Lib.Pipeline.Value
import Idealize.ShloMosaic.Lib.ValueIdx
import Idealize.ShloMosaic.Lib.ValueLayout

noncomputable section

namespace Cert.Glue

open Cert.ReferenceIdeal Cert.ReferenceIdeal.Facts₀ Cert.ReferenceIdeal.Facts Idealize.ShloMosaic

variable {F : FTy → Type} [FloatOps F]

/-- Gather, scale and scatter-add along the edges: features `h` [100000,64], sources `s` and destinations `d`
    [1300000] (32-bit words), weights `n` [1300000]. -/
def agg (h : (⟨S100000x64, .f32⟩ : BufTy).Contents (Elt F)) (s d : (⟨S1300000, .i32⟩ : BufTy).Contents (Elt F))
    (n : (⟨S1300000, .f32⟩ : BufTy).Contents (Elt F)) : (⟨S100000x64, .f32⟩ : BufTy).Contents (Elt F) :=
  Host.scatterAdd scatter_S100000x64_S1300000x1_S1300000x64_1_0_0_1
    (broadcastInDim S100000x64 ![] bcast_S_S100000x64 (constant S_ .f32 0x00000000#32))
    (broadcastInDim S1300000x1 ![0] bcast_S1300000_S1300000x1_0 d)
    (mulf (Host.gather gather_S100000x64_S1300000x1_S1300000x64_1_0_n_n_0_1_164 h
        (broadcastInDim S1300000x1 ![0] bcast_S1300000_S1300000x1_0
          (select (cmpi .slt s (broadcastInDim S1300000 ![] bcast_S_S1300000 (constantI S_ 32 0#32)))
            (addi s (broadcastInDim S1300000 ![] bcast_S_S1300000 (constantI S_ 32 100000#32))) s)))
      (broadcastInDim S1300000x64 ![0, 1] bcast_S1300000x1_S1300000x64_0_1
        (broadcastInDim S1300000x1 ![0] bcast_S1300000_S1300000x1_0 n)))

end Cert.Glue

end
-- ==== Proof.KHost.lean ====
/-
  The host stretches of the kernel's program, read as values (at any float family).

  Between its four regions the program runs the same host operations as the reference: from the edge list it
  builds the source and destination vectors (each edge row joined with the self loops 0 … 99999), the degree of
  every node by a scatter-add of ones, the symmetric weight norm[e] = dinv[src e]·dinv[dst e], and, after each
  projection, the edge stage (gather, scale, scatter-add) and the reshape of the bias and the slope into one-row
  matrices. Each lemma says what ONE buffer holds at a segment boundary of @main, as the reference's own stage
  function of the edge list or as the edge stage `Glue.agg` of the buffers it reads; a buffer a stretch or a
  region does not write keeps its contents.
-/
import proofs.«135357_j1623497638364_1_alg».proof.Proof.Gen.KernelIdeal.Frame
import proofs.«135357_j1623497638364_1_alg».proof.Proof.Glue
import proofs.«135357_j1623497638364_1_alg».proof.Proof.ReadP
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg)

/-- The result lemmas applied by rewriting, until none applies: they reach the operands of a concatenation, which
    the one-pass form leaves as they are. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- A buffer that no operation of the named stretch writes keeps its contents across it. -/
macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The first stretch: the edge vectors and the degrees -/

/-- The sources: the edge list's row 0 joined with the self loops. -/
theorem W1_v3 (c : Dev nD) : W1 m ρ c (Proc.devRef .tc main_v3) = val_main_v3 (F := F) (m ((c : Thread nD τ).loc main_arg1)) := by
  show StableHlo.after hostOps0 (W0 m ρ c) (Proc.devRef .tc main_v3) = _
  have e : W0 m ρ c (Proc.devRef .tc main_arg1) = m ((c : Thread nD τ).loc main_arg1) := rfl
  generalize W0 m ρ c = W at e ⊢
  after_results_simp
  results_rw
  rw [e]
  unfold val_main_v3 val_main_v2 val_main_v1 val_main_v0
  rfl

/-- The destinations: the edge list's row 1 joined with the self loops. -/
theorem W1_v6 (c : Dev nD) : W1 m ρ c (Proc.devRef .tc main_v6) = val_main_v6 (F := F) (m ((c : Thread nD τ).loc main_arg1)) := by
  show StableHlo.after hostOps0 (W0 m ρ c) (Proc.devRef .tc main_v6) = _
  have e : W0 m ρ c (Proc.devRef .tc main_arg1) = m ((c : Thread nD τ).loc main_arg1) := rfl
  generalize W0 m ρ c = W at e ⊢
  after_results_simp
  results_rw
  rw [e]
  unfold val_main_v6 val_main_v5 val_main_v4 val_main_v0
  rfl

/-- Which nodes have a positive degree (the degree: a scatter-add of ones at the destinations). -/
theorem W1_v12 (c : Dev nD) : W1 m ρ c (Proc.devRef .tc main_v12) = val_main_v12 (F := F) (m ((c : Thread nD τ).loc main_arg1)) := by
  show StableHlo.after hostOps0 (W0 m ρ c) (Proc.devRef .tc main_v12) = _
  have e : W0 m ρ c (Proc.devRef .tc main_arg1) = m ((c : Thread nD τ).loc main_arg1) := rfl
  generalize W0 m ρ c = W at e ⊢
  after_results_simp
  results_rw
  rw [e]
  unfold val_main_v12 val_main_v11 val_main_cst_1 val_main_v10 val_main_v9 val_main_v8 val_main_v7 val_main_cst_0 val_main_cst val_main_v6 val_main_v5 val_main_v4 val_main_v0
  rfl

/-- The reciprocal square root of the degrees. -/
theorem W1_v13 (c : Dev nD) : W1 m ρ c (Proc.devRef .tc main_v13) = val_main_v13 (F := F) (m ((c : Thread nD τ).loc main_arg1)) := by
  show StableHlo.after hostOps0 (W0 m ρ c) (Proc.devRef .tc main_v13) = _
  have e : W0 m ρ c (Proc.devRef .tc main_arg1) = m ((c : Thread nD τ).loc main_arg1) := rfl
  generalize W0 m ρ c = W at e ⊢
  after_results_simp
  results_rw
  rw [e]
  unfold val_main_v13 val_main_v10 val_main_v9 val_main_v8 val_main_v7 val_main_cst_0 val_main_cst val_main_v6 val_main_v5 val_main_v4 val_main_v0
  rfl

/-- The zero that replaces the reciprocal square root at a node of degree zero. -/
theorem W1_cst_2 (c : Dev nD) : W1 m ρ c (Proc.devRef .tc main_cst_2) = val_main_cst_2 (F := F) := by
  show StableHlo.after hostOps0 (W0 m ρ c) (Proc.devRef .tc main_cst_2) = _
  generalize W0 m ρ c = W
  after_results_simp
  rfl

/-! ## The second and third stretches: the symmetric weights; the edge vectors kept -/

theorem W3_v3 (c : Dev nD) : W3 m ρ c (Proc.devRef .tc main_v3) = val_main_v3 (F := F) (m ((c : Thread nD τ).loc main_arg1)) :=
  calc W3 m ρ c (Proc.devRef .tc main_v3)
    _ = W2 m ρ c (Proc.devRef .tc main_v3) := by keeps hostOps0_2
    _ = W1 m ρ c (Proc.devRef .tc main_v3) := by keeps hostOps0_1
    _ = _ := W1_v3 m ρ c

theorem W3_v6 (c : Dev nD) : W3 m ρ c (Proc.devRef .tc main_v6) = val_main_v6 (F := F) (m ((c : Thread nD τ).loc main_arg1)) :=
  calc W3 m ρ c (Proc.devRef .tc main_v6)
    _ = W2 m ρ c (Proc.devRef .tc main_v6) := by keeps hostOps0_2
    _ = W1 m ρ c (Proc.devRef .tc main_v6) := by keeps hostOps0_1
    _ = _ := W1_v6 m ρ c

set_option maxHeartbeats 2000000 in
/-- The weights: norm[e] = dinv[src e]·dinv[dst e], with dinv the reciprocal square root of the degree where it is
    positive and zero elsewhere, and each index wrapped before the gather. -/
theorem W3_v29 (c : Dev nD) : W3 m ρ c (Proc.devRef .tc main_v29) = val_main_v29 (F := F) (m ((c : Thread nD τ).loc main_arg1)) := by
  show StableHlo.after hostOps0_2 (StableHlo.after hostOps0_1 (W1 m ρ c)) (Proc.devRef .tc main_v29) = _
  have e3 := W1_v3 m ρ c
  have e6 := W1_v6 m ρ c
  have e12 := W1_v12 m ρ c
  have e13 := W1_v13 m ρ c
  have e2 := W1_cst_2 (F := F) m ρ c
  generalize W1 m ρ c = W at e3 e6 e12 e13 e2 ⊢
  after_results_simp
  try simp only [TRef.ofBuf, TRef.toBuf, cast_eq]
  rw [e3, e6, e12, e13, e2]
  unfold val_main_v29 val_main_v21 val_main_v28 val_main_v14 val_main_v20 val_main_v27 val_main_v19 val_main_v26 val_main_v16 val_main_v18 val_main_v23 val_main_v25 val_main_v15 val_main_v17 val_main_v22 val_main_v24 val_main_c val_main_c_3 val_main_c_4 val_main_c_5 val_main_call0_v1 val_main_call0_v0
  rfl

/-! ## The arguments, as launched, at the boundaries where a region or a stretch reads them -/

theorem W3_arg (c : Dev nD) (b : Ref sig .tc) (h2 : ∀ op ∈ (hostOps0_2 : List (HloOp τ sig (Elt F))), Proc.devRef .tc b ∉ op.writes)
    (h1 : ∀ op ∈ (hostOps0_1 : List (HloOp τ sig (Elt F))), Proc.devRef .tc b ∉ op.writes)
    (h0 : ∀ op ∈ (hostOps0 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = _ := rfl

/-- A reference no operation of the named stretch writes. -/
macro "not_written " ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_arg0 (c : Dev nD) : W3 m ρ c (Proc.devRef .tc main_arg0) = m ((c : Thread nD τ).loc main_arg0) :=
  W3_arg m ρ c main_arg0 (by not_written hostOps0_2) (by not_written hostOps0_1) (by not_written hostOps0)
theorem W3_arg2 (c : Dev nD) : W3 m ρ c (Proc.devRef .tc main_arg2) = m ((c : Thread nD τ).loc main_arg2) :=
  W3_arg m ρ c main_arg2 (by not_written hostOps0_2) (by not_written hostOps0_1) (by not_written hostOps0)
theorem W3_arg3 (c : Dev nD) : W3 m ρ c (Proc.devRef .tc main_arg3) = m ((c : Thread nD τ).loc main_arg3) :=
  W3_arg m ρ c main_arg3 (by not_written hostOps0_2) (by not_written hostOps0_1) (by not_written hostOps0)
theorem W3_arg4 (c : Dev nD) : W3 m ρ c (Proc.devRef .tc main_arg4) = m ((c : Thread nD τ).loc main_arg4) :=
  W3_arg m ρ c main_arg4 (by not_written hostOps0_2) (by not_written hostOps0_1) (by not_written hostOps0)
theorem W3_arg5 (c : Dev nD) : W3 m ρ c (Proc.devRef .tc main_arg5) = m ((c : Thread nD τ).loc main_arg5) :=
  W3_arg m ρ c main_arg5 (by not_written hostOps0_2) (by not_written hostOps0_1) (by not_written hostOps0)
theorem W3_arg6 (c : Dev nD) : W3 m ρ c (Proc.devRef .tc main_arg6) = m ((c : Thread nD τ).loc main_arg6) :=
  W3_arg m ρ c main_arg6 (by not_written hostOps0_2) (by not_written hostOps0_1) (by not_written hostOps0)
theorem W3_arg7 (c : Dev nD) : W3 m ρ c (Proc.devRef .tc main_arg7) = m ((c : Thread nD τ).loc main_arg7) :=
  W3_arg m ρ c main_arg7 (by not_written hostOps0_2) (by not_written hostOps0_1) (by not_written hostOps0)

/-- The bias and the slope of the first layer when the second region is entered. -/
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)

/-- The second layer's weights when the third region is entered. -/
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by keeps hostOps1
    _ = W3 m ρ c (Proc.devRef .tc main_arg5) := W4_of_ne m ρ c main_arg5 (by decide)
    _ = _ := W3_arg5 m ρ c

/-- A buffer that neither the first three regions nor the stretch between them write holds at the third region's
    exit what it held when the first was entered. -/
theorem W7_of_W3 (c : Dev nD) (b : Ref sig .tc) (h2 : ∀ w, Pipeline.arrRef spec2 w ≠ b) (h1 : ∀ w, Pipeline.arrRef spec1 w ≠ b)
    (hs : ∀ op ∈ (hostOps1 : List (HloOp τ sig (Elt F))), Proc.devRef .tc b ∉ op.writes) (h0 : ∀ w, Pipeline.arrRef spec0 w ≠ b) :
    W7 m ρ c (Proc.devRef .tc b) = W3 m ρ c (Proc.devRef .tc b) :=
  calc W7 m ρ c (Proc.devRef .tc b)
    _ = W6 m ρ c (Proc.devRef .tc b) := W7_of_ne m ρ c b h2
    _ = W5 m ρ c (Proc.devRef .tc b) := W6_of_ne m ρ c b h1
    _ = W4 m ρ c (Proc.devRef .tc b) := StableHlo.after_of_forall_not_mem _ _ hs
    _ = W3 m ρ c (Proc.devRef .tc b) := W4_of_ne m ρ c b h0

theorem W7_arg6 (c : Dev nD) : W7 m ρ c (Proc.devRef .tc main_arg6) = m ((c : Thread nD τ).loc main_arg6) :=
  (W7_of_W3 m ρ c main_arg6 (by decide) (by decide) (by not_written hostOps1) (by decide)).trans (W3_arg6 m ρ c)
theorem W7_arg7 (c : Dev nD) : W7 m ρ c (Proc.devRef .tc main_arg7) = m ((c : Thread nD τ).loc main_arg7) :=
  (W7_of_W3 m ρ c main_arg7 (by decide) (by decide) (by not_written hostOps1) (by decide)).trans (W3_arg7 m ρ c)

/-! ## The edge vectors at the two edge stages -/

theorem W4_v3 (c : Dev nD) : W4 m ρ c (Proc.devRef .tc main_v3) = val_main_v3 (F := F) (m ((c : Thread nD τ).loc main_arg1)) :=
  (W4_of_ne m ρ c main_v3 (by decide)).trans (W3_v3 m ρ c)
theorem W4_v6 (c : Dev nD) : W4 m ρ c (Proc.devRef .tc main_v6) = val_main_v6 (F := F) (m ((c : Thread nD τ).loc main_arg1)) :=
  (W4_of_ne m ρ c main_v6 (by decide)).trans (W3_v6 m ρ c)
theorem W4_v29 (c : Dev nD) : W4 m ρ c (Proc.devRef .tc main_v29) = val_main_v29 (F := F) (m ((c : Thread nD τ).loc main_arg1)) :=
  (W4_of_ne m ρ c main_v29 (by decide)).trans (W3_v29 m ρ c)
theorem W7_v3 (c : Dev nD) : W7 m ρ c (Proc.devRef .tc main_v3) = val_main_v3 (F := F) (m ((c : Thread nD τ).loc main_arg1)) :=
  (W7_of_W3 m ρ c main_v3 (by decide) (by decide) (by not_written hostOps1) (by decide)).trans (W3_v3 m ρ c)
theorem W7_v6 (c : Dev nD) : W7 m ρ c (Proc.devRef .tc main_v6) = val_main_v6 (F := F) (m ((c : Thread nD τ).loc main_arg1)) :=
  (W7_of_W3 m ρ c main_v6 (by decide) (by decide) (by not_written hostOps1) (by decide)).trans (W3_v6 m ρ c)
theorem W7_v29 (c : Dev nD) : W7 m ρ c (Proc.devRef .tc main_v29) = val_main_v29 (F := F) (m ((c : Thread nD τ).loc main_arg1)) :=
  (W7_of_W3 m ρ c main_v29 (by decide) (by decide) (by not_written hostOps1) (by decide)).trans (W3_v29 m ρ c)

/-! ## The two edge stages and the one-row matrices -/

set_option maxHeartbeats 2000000 in
/-- After the first projection: the aggregated features are the edge stage of the projection's result. -/
theorem W5_v43 (c : Dev nD) : W5 m ρ c (Proc.devRef .tc main_v43)
    = Cert.Glue.agg (F := F) (W4 m ρ c (Proc.devRef .tc main_v30)) (W4 m ρ c (Proc.devRef .tc main_v3)) (W4 m ρ c (Proc.devRef .tc main_v6)) (W4 m ρ c (Proc.devRef .tc main_v29)) := by
  show StableHlo.after hostOps1 (W4 m ρ c) (Proc.devRef .tc main_v43) = _
  generalize W4 m ρ c = W
  after_results_simp
  rfl

set_option maxHeartbeats 2000000 in
/-- The first layer's bias as a one-row matrix. -/
theorem W5_v44 (c : Dev nD) : W5 m ρ c (Proc.devRef .tc main_v44)
    = shapeCast S1x64 (W4 m ρ c (Proc.devRef .tc main_arg3)) Facts₀.shapeCasts_S64_S1x64 := by
  show StableHlo.after hostOps1 (W4 m ρ c) (Proc.devRef .tc main_v44) = _
  generalize W4 m ρ c = W
  after_results_simp
  rfl

set_option maxHeartbeats 2000000 in
/-- The first layer's slope as a one-row matrix. -/
theorem W5_v45 (c : Dev nD) : W5 m ρ c (Proc.devRef .tc main_v45)
    = shapeCast S1x64 (W4 m ρ c (Proc.devRef .tc main_arg4)) Facts₀.shapeCasts_S64_S1x64 := by
  show StableHlo.after hostOps1 (W4 m ρ c) (Proc.devRef .tc main_v45) = _
  generalize W4 m ρ c = W
  after_results_simp
  rfl

set_option maxHeartbeats 2000000 in
/-- After the second projection: the same edge stage of its result. -/
theorem W8_v60 (c : Dev nD) : W8 m ρ c (Proc.devRef .tc main_v60)
    = Cert.Glue.agg (F := F) (W7 m ρ c (Proc.devRef .tc main_v47)) (W7 m ρ c (Proc.devRef .tc main_v3)) (W7 m ρ c (Proc.devRef .tc main_v6)) (W7 m ρ c (Proc.devRef .tc main_v29)) := by
  show StableHlo.after hostOps3 (W7 m ρ c) (Proc.devRef .tc main_v60) = _
  generalize W7 m ρ c = W
  after_results_simp
  rfl

set_option maxHeartbeats 2000000 in
/-- The second layer's bias as a one-row matrix. -/
theorem W8_v61 (c : Dev nD) : W8 m ρ c (Proc.devRef .tc main_v61)
    = shapeCast S1x64 (W7 m ρ c (Proc.devRef .tc main_arg6)) Facts₀.shapeCasts_S64_S1x64 := by
  show StableHlo.after hostOps3 (W7 m ρ c) (Proc.devRef .tc main_v61) = _
  generalize W7 m ρ c = W
  after_results_simp
  rfl

set_option maxHeartbeats 2000000 in
/-- The second layer's slope as a one-row matrix. -/
theorem W8_v62 (c : Dev nD) : W8 m ρ c (Proc.devRef .tc main_v62)
    = shapeCast S1x64 (W7 m ρ c (Proc.devRef .tc main_arg7)) Facts₀.shapeCasts_S64_S1x64 := by
  show StableHlo.after hostOps3 (W7 m ρ c) (Proc.devRef .tc main_v62) = _
  generalize W7 m ρ c = W
  after_results_simp
  rfl

end Cert.KernelIdeal.KHost

end
-- ==== Proof.RegionLin.lean ====
import proofs.«135357_j1623497638364_1_alg».proof.Proof.Gen.KernelIdeal.Frame
import proofs.«135357_j1623497638364_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat)

-- the TensorCore's buffer contents when a region is entered, at the ideal instance: every region lemma is stated at
-- ANY such contents, as the generated proof data are
variable (V : (c : Dev nD) → (b : Ref sig .tc) → Buf (Elt Ideal) ((c : Thread nD τ).loc b))

/-! ## The contraction of a row block with the weights, index by index

Both projections contract axis 1 of a [10000, 64] block with axis 0 of the [64, 64] weights. -/

/-- The two offsets of a whole-buffer access are zero. -/
theorem origin2 : (![0, 0] : Fin 2 → Nat) = fun _ => 0 := funext fun a => by fin_cases a <;> rfl

/-- The left operand's row coordinate is the output's row. -/
theorem lhs_block_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column coordinate is the summation index. -/
theorem lhs_block_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row coordinate is the summation index. -/
theorem rhs_block_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column coordinate is the output's column. -/
theorem rhs_block_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (r, k) of a row block, for the block's output index j = (r, q). -/
abbrev blockLhs (j : S10000x64.Idx) (k : Fin 64) : S10000x64.Idx := fun a => match a with
  | ⟨0, _⟩ => ⟨(j 0).val, (j 0).isLt⟩
  | ⟨1, _⟩ => ⟨k.val, k.isLt⟩
/-- Entry (k, q) of the weights, for the block's output index j = (r, q). -/
abbrev blockRhs (j : S10000x64.Idx) (k : Fin 64) : S64x64.Idx := fun a => match a with
  | ⟨0, _⟩ => ⟨k.val, k.isLt⟩
  | ⟨1, _⟩ => ⟨(j 1).val, (j 1).isLt⟩

/-- The product of a row block with the weights into a zero accumulator, read at an index, is the plain sum over the
    64 contracted entries. -/
theorem matmul_block_apply (x : FVec Ideal S10000x64 .bf16) (w : FVec Ideal S64x64 .bf16) (j : S10000x64.Idx) :
    FloatOps.matmul dot_S10000x64_S64x64_S10000x64_1_0_0_1_n_n none x w (constant S10000x64 .f32 0x00000000#32) j
      = ∑ k : Fin 64, x (blockLhs j k) * w (blockRhs j k) := by
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = blockLhs j k := funext fun a => Fin.ext (by
    match a with
    | ⟨0, _⟩ => exact lhs_block_0 _ _
    | ⟨1, _⟩ => exact (lhs_block_1 _ _).trans hk)
  have er : dot_S10000x64_S64x64_S10000x64_1_0_0_1_n_n.rhsIdx j ((ValueIdx.contrEquiv1 dot_S10000x64_S64x64_S10000x64_1_0_0_1_n_n 64 rfl rfl).symm k) = blockRhs j k := funext fun a => Fin.ext (by
    match a with
    | ⟨0, _⟩ => exact (rhs_block_0 _ _).trans hk
    | ⟨1, _⟩ => exact rhs_block_1 _ _)
  rw [el, er]

/-! ## The first projection -/

/-- The body's payload at an index: rounding to the narrower format is the identity on the ideal values, so the
    payload is the sum of products of the loaded block with the loaded weights. -/
theorem pay0_apply (x : Vec Ideal S10000x64 .f32) (w : Vec Ideal S64x64 .f32) (j : S10000x64.Idx) :
    k0_pay1 (F := Ideal) x w j = ∑ k : Fin 64, x (blockLhs j k) * w (blockRhs j k) := by
  unfold k0_pay1
  exact matmul_block_apply _ _ j

/-- The index maps over the ten points: the row blocks of the left operand and of the result sit at the
    point's own number on axis 0 and at 0 on axis 1; the weights' one block sits at the origin for every point. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, read at (r, k), is the array at row 10000·t + r, column k. -/
theorem lhs_block0 (c : Dev nD) (t : Fin cfg0.N) (y : S10000x64.Idx) (i : S100000x64.Idx)
    (h0 : (i 0).val = t.val * 10000 + (y 0).val) (h1 : (i 1).val = (y 1).val) :
    iblk0 V c 0 t y = V c main_arg0 i := by
  obtain ⟨e0, e1, -, -, -, -⟩ := index0 t
  show V c main_arg0 (((cfg0.win 0).blk t).view.emb y) = V c main_arg0 i
  refine congrArg _ (funext fun a => Fin.ext ?_)
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- The weights' block at any point, read at (k, q), is the weights at (k, q). -/
theorem rhs_block0 (c : Dev nD) (t : Fin cfg0.N) (y : S64x64.Idx) (i : S64x64.Idx)
    (h0 : (i 0).val = (y 0).val) (h1 : (i 1).val = (y 1).val) :
    iblk0 V c 1 t y = V c main_arg2 i := by
  obtain ⟨-, -, e2, e3, -, -⟩ := index0 t
  show V c main_arg2 (((cfg0.win 1).blk t).view.emb y) = V c main_arg2 i
  refine congrArg _ (funext fun a => Fin.ext ?_)
  match a with
  | ⟨0, _⟩ => show win0_1.index t (0 : Fin 2) * 64 + 1 * (y 0).val = (i 0).val; omega
  | ⟨1, _⟩ => show win0_1.index t (1 : Fin 2) * 64 + 1 * (y 1).val = (i 1).val; omega

/-- What point t writes back is block t of x·W. -/
theorem flushed0 (c : Dev nD) (t : Fin cfg0.N) :
    (dat0 V c).flushed 2 t
      = ((cfg0.win 2).blk t).view.read (Elt Ideal) (Cert.Spec.lin (V c main_arg0) (V c main_arg2)) := by
  show (cfg0.win 2).cut (grid0.coords t) ((dat0 V c).after 2 t) = _
  rw [after0_2]
  unfold out0_2
  rw [View.canon_unit_zero origin2]
  simp only [View.ld_unit_zero (S := S10000x64) origin2, View.ld_unit_zero (S := S64x64) origin2]
  obtain ⟨-, -, -, -, e4, e5⟩ := index0 t
  funext j
  show k0_pay1 (F := Ideal) (iblk0 V c 0 t) (iblk0 V c 1 t) j
    = Cert.Spec.lin (V c main_arg0) (V c main_arg2) (((cfg0.win 2).blk t).view.emb j)
  rw [pay0_apply]
  unfold Cert.Spec.lin
  refine Finset.sum_congr rfl fun k _ => ?_
  have r0 : ((((cfg0.win 2).blk t).view.emb j) 0).val = t.val * 10000 + (j 0).val := by
    show win0_2.index t (0 : Fin 2) * 10000 + 1 * (j 0).val = _; omega
  have r1 : ((((cfg0.win 2).blk t).view.emb j) 1).val = (j 1).val := by
    show win0_2.index t (1 : Fin 2) * 64 + 1 * (j 1).val = _; omega
  rw [lhs_block0 V c t (blockLhs j k) (Cert.Spec.lhsAt (((cfg0.win 2).blk t).view.emb j) k) r0 rfl,
    rhs_block0 V c t (blockRhs j k) (Cert.Spec.rhsAt (((cfg0.win 2).blk t).view.emb j) k) rfl r1]

/-- An index of the result is in point t's block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Every index of the result lies in the block of the point numbered by its row divided by 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := index0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- REGION 0 (the first projection): after the ten row blocks' write-backs the result array holds x·W. -/
theorem region0 (c : Dev nD) :
    (dat0 V c).arrAt 2 cfg0.N = Cert.Spec.lin (V c main_arg0) (V c main_arg2) :=
  (dat0 V c).arrAt_eq_of_cover 2 (Cert.Spec.lin (V c main_arg0) (V c main_arg2))
    (fun t _ => flushed0 V c t) cover0

/-! ## The second projection -/

/-- The body's payload at an index: the reshape to the block's own shape and the rounding to the narrower format are
    both the identity on the ideal values, so the payload is again the sum of products of the loaded block with the
    loaded weights. -/
theorem pay2_apply (x : Vec Ideal S10000x64 .f32) (w : Vec Ideal S64x64 .f32) (j : S10000x64.Idx) :
    k2_pay1 (F := Ideal) x w j = ∑ k : Fin 64, x (blockLhs j k) * w (blockRhs j k) := by
  unfold k2_pay1
  rw [shapeCast_self]
  exact matmul_block_apply _ _ j

/-- The index maps over the ten points: the row blocks of the activations and of the result sit at the
    point's own number on axis 0 and at 0 on axis 1; the weights' one block sits at the origin for every point. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The activations' block at point t, read at (r, k), is the array at row 10000·t + r, column k. -/
theorem lhs_block2 (c : Dev nD) (t : Fin cfg2.N) (y : S10000x64.Idx) (i : S100000x64.Idx)
    (h0 : (i 0).val = t.val * 10000 + (y 0).val) (h1 : (i 1).val = (y 1).val) :
    iblk2 V c 0 t y = V c main_v46 i := by
  obtain ⟨e0, e1, -, -, -, -⟩ := index2 t
  show V c main_v46 (((cfg2.win 0).blk t).view.emb y) = V c main_v46 i
  refine congrArg _ (funext fun a => Fin.ext ?_)
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- The second weights' block at any point, read at (k, q), is the weights at (k, q). -/
theorem rhs_block2 (c : Dev nD) (t : Fin cfg2.N) (y : S64x64.Idx) (i : S64x64.Idx)
    (h0 : (i 0).val = (y 0).val) (h1 : (i 1).val = (y 1).val) :
    iblk2 V c 1 t y = V c main_arg5 i := by
  obtain ⟨-, -, e2, e3, -, -⟩ := index2 t
  show V c main_arg5 (((cfg2.win 1).blk t).view.emb y) = V c main_arg5 i
  refine congrArg _ (funext fun a => Fin.ext ?_)
  match a with
  | ⟨0, _⟩ => show win2_1.index t (0 : Fin 2) * 64 + 1 * (y 0).val = (i 0).val; omega
  | ⟨1, _⟩ => show win2_1.index t (1 : Fin 2) * 64 + 1 * (y 1).val = (i 1).val; omega

/-- What point t writes back is block t of the activations times the second weights. -/
theorem flushed2 (c : Dev nD) (t : Fin cfg2.N) :
    (dat2 V c).flushed 2 t
      = ((cfg2.win 2).blk t).view.read (Elt Ideal) (Cert.Spec.lin (V c main_v46) (V c main_arg5)) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S64x64) origin2]
  obtain ⟨-, -, -, -, e4, e5⟩ := index2 t
  funext j
  show k2_pay1 (F := Ideal) (iblk2 V c 0 t) (iblk2 V c 1 t) j
    = Cert.Spec.lin (V c main_v46) (V c main_arg5) (((cfg2.win 2).blk t).view.emb j)
  rw [pay2_apply]
  unfold Cert.Spec.lin
  refine Finset.sum_congr rfl fun k _ => ?_
  have r0 : ((((cfg2.win 2).blk t).view.emb j) 0).val = t.val * 10000 + (j 0).val := by
    show win2_2.index t (0 : Fin 2) * 10000 + 1 * (j 0).val = _; omega
  have r1 : ((((cfg2.win 2).blk t).view.emb j) 1).val = (j 1).val := by
    show win2_2.index t (1 : Fin 2) * 64 + 1 * (j 1).val = _; omega
  rw [lhs_block2 V c t (blockLhs j k) (Cert.Spec.lhsAt (((cfg2.win 2).blk t).view.emb j) k) r0 rfl,
    rhs_block2 V c t (blockRhs j k) (Cert.Spec.rhsAt (((cfg2.win 2).blk t).view.emb j) k) rfl r1]

/-- An index of the result is in point t's block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v47).slice (win2_2.rect t)).set ↔ _
  rw [View.set_slice_whole, Rect.mem_set_unit]
  exact Iff.rfl

/-- Every index of the result lies in the block of the point numbered by its row divided by 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, e4, e5⟩ := index2 t
  have ht : t.val = (i 0).val / 10000 := rfl
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- REGION 2 (the second projection): the same of the first layer's activations and the second weights. -/
theorem region2 (c : Dev nD) :
    (dat2 V c).arrAt 2 cfg2.N = Cert.Spec.lin (V c main_v46) (V c main_arg5) :=
  (dat2 V c).arrAt_eq_of_cover 2 (Cert.Spec.lin (V c main_v46) (V c main_arg5))
    (fun t _ => flushed2 V c t) cover2

end Cert.KernelIdeal.Regions

end
-- ==== Proof.RegionAct.lean ====
import proofs.«135357_j1623497638364_1_alg».proof.Proof.Gen.KernelIdeal.Frame
import proofs.«135357_j1623497638364_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat)

-- the TensorCore's buffer contents when a region is entered, at the ideal instance: every region lemma is stated at
-- ANY such contents, as the generated proof data are
variable (V : (c : Dev nD) → (b : Ref sig .tc) → Buf (Elt Ideal) ((c : Thread nD τ).loc b))

/-- Both offsets of a whole-block access are zero. -/
theorem zeroOffsets : (![0, 0] : Fin 2 → Nat) = fun _ => 0 :=
  funext fun a => match a with | ⟨0, _⟩ => rfl | ⟨1, _⟩ => rfl

/-! ## Region 1: bias and PReLU of the first layer

The result array has 100000 rows of 64 channels and is written in 10 blocks of 10000 rows. At (p, q) of block t the
body adds the bias b[0,q] to the feature z[10000·t + p, q] and keeps the sum v where v ≥ 0, taking a[0,q]·v
elsewhere: block t of `act z b a`. The blocks tile the array, so the array ends holding `act z b a`. -/

/-- The body's value at one index (p, q) of its block, with k = (0, q) the channel's place in a one-row matrix:
    v = x0[p,q] + x1[0,q], kept where v ≥ 0 and scaled by x2[0,q] elsewhere. -/
theorem pay1_apply (x0 : Vec Ideal S10000x64 .f32) (x1 x2 : Vec Ideal S1x64 .f32) (j : S10000x64.Idx) (k : S1x64.Idx)
    (hk0 : (k 0).val = 0) (hk1 : (k 1).val = (j 1).val) :
    k1_pay1 x0 x1 x2 j = Scalar.select (FloatOps.cmpf (F := Ideal) (φ := .f32) .oge (x0 j + x1 k) (Ideal.ofBits .f32 0x00000000#32))
      (x0 j + x1 k) (x2 k * (x0 j + x1 k)) := by
  -- a one-row matrix broadcast along the rows is read at row 0 and the same column
  have hk : ∀ a : Fin S1x64.rank, (k a).val = if S1x64.size a = 1 then 0
      else (j ⟨a.val + (S10000x64.rank - S1x64.rank), by have := a.isLt; omega⟩).val := fun a =>
    match a with
    | ⟨0, _⟩ => by rw [if_pos (by rfl)]; exact hk0
    | ⟨1, _⟩ => by
      show (k 1).val = if (64 : Nat) = 1 then 0 else (j 1).val
      rw [if_neg (by decide)]; exact hk1
  unfold k1_pay1
  simp only [shapeCast_self]
  rw [ValueIdx.select_apply, ValueIdx.cmpf_apply, ValueIdx.mulf_apply, ValueIdx.addf_apply, ValueIdx.broadcast_apply,
    broadcastTo_apply x1 _ j k hk, broadcastTo_apply x2 _ j k hk]
  rfl

/-- The printed index maps over the grid: at point t the feature window and the result window sit at block (t, 0),
    the two one-row windows at block (0, 0). -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the features is rows 10000·t … 10000·t + 9999 of the feature array. -/
theorem featBlock1 (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v43 : S100000x64.Idx → EReal) i := by
  obtain ⟨e0, e1, -⟩ := blockIndex1 t
  show V c main_v43 (((cfg1.win 0).blk t).view.emb y) = V c main_v43 i
  refine congrArg _ (funext fun a => Fin.ext ?_)
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The bias window's one block is the whole one-row bias matrix, at every point. -/
theorem biasBlock1 (c : Dev nD) (t : Fin cfg1.N) (y : S1x64.Idx) (k : S1x64.Idx)
    (h0 : (k 0).val = (y 0).val) (h1 : (k 1).val = (y 1).val) :
    (iblk1 V c 1 t : Vec Ideal S1x64 .f32) y = (V c main_v44 : S1x64.Idx → EReal) k := by
  obtain ⟨-, -, e0, e1, -⟩ := blockIndex1 t
  show V c main_v44 (((cfg1.win 1).blk t).view.emb y) = V c main_v44 k
  refine congrArg _ (funext fun a => Fin.ext ?_)
  match a with
  | ⟨0, _⟩ => show win1_1.index t (0 : Fin 2) * 1 + 1 * (y 0).val = (k 0).val; omega
  | ⟨1, _⟩ => show win1_1.index t (1 : Fin 2) * 64 + 1 * (y 1).val = (k 1).val; omega

/-- The slope window's one block is the whole one-row slope matrix, at every point. -/
theorem slopeBlock1 (c : Dev nD) (t : Fin cfg1.N) (y : S1x64.Idx) (k : S1x64.Idx)
    (h0 : (k 0).val = (y 0).val) (h1 : (k 1).val = (y 1).val) :
    (iblk1 V c 2 t : Vec Ideal S1x64 .f32) y = (V c main_v45 : S1x64.Idx → EReal) k := by
  obtain ⟨-, -, -, -, e0, e1, -⟩ := blockIndex1 t
  show V c main_v45 (((cfg1.win 2).blk t).view.emb y) = V c main_v45 k
  refine congrArg _ (funext fun a => Fin.ext ?_)
  match a with
  | ⟨0, _⟩ => show win1_2.index t (0 : Fin 2) * 1 + 1 * (y 0).val = (k 0).val; omega
  | ⟨1, _⟩ => show win1_2.index t (1 : Fin 2) * 64 + 1 * (y 1).val = (k 1).val; omega

/-- The body's value at (p, q) of block t is `act` of the three arrays at (10000·t + p, q). -/
theorem blockValue1 (c : Dev nD) (t : Fin cfg1.N) (j : S10000x64.Idx) (i : S100000x64.Idx)
    (h0 : (i 0).val = t.val * 10000 + (j 0).val) (h1 : (i 1).val = (j 1).val) :
    k1_pay1 (iblk1 V c 0 t) (iblk1 V c 1 t) (iblk1 V c 2 t) j
      = Cert.Spec.act (V c main_v43) (V c main_v44) (V c main_v45) i := by
  rw [pay1_apply _ _ _ j (Cert.Spec.chanAt i) rfl h1, featBlock1 V c t j i h0 h1,
    biasBlock1 V c t _ (Cert.Spec.chanAt i) rfl rfl, slopeBlock1 V c t _ (Cert.Spec.chanAt i) rfl rfl]
  rfl

/-- What point t writes back is block t of `act` of the three arrays as the region finds them. -/
theorem flushed1_eq (c : Dev nD) (t : Fin cfg1.N) :
    (dat1 V c).flushed 3 t = ((cfg1.win 3).blk t).view.read (Elt Ideal) (Cert.Spec.act (V c main_v43) (V c main_v44) (V c main_v45)) := by
  show (cfg1.win 3).cut (grid1.coords t) ((dat1 V c).after 3 t) = _
  rw [after1_3]
  unfold out1_3
  rw [View.canon_unit_zero zeroOffsets]
  simp only [View.ld_unit_zero (S := S10000x64) zeroOffsets, View.ld_unit_zero (S := S1x64) zeroOffsets]
  funext j
  obtain ⟨-, -, -, -, -, -, e0, e1⟩ := blockIndex1 t
  show k1_pay1 (iblk1 V c 0 t) (iblk1 V c 1 t) (iblk1 V c 2 t) j
    = Cert.Spec.act (V c main_v43) (V c main_v44) (V c main_v45) (((cfg1.win 3).blk t).view.emb j)
  have hj0 : (j 0).val < 10000 := (j 0).isLt
  have hj1 : (j 1).val < 64 := (j 1).isLt
  -- a coordinate of the array under the block: block index × block size + the coordinate inside the block
  have hi0 : ((((cfg1.win 3).blk t).view.emb j) 0).val = t.val * 10000 + (j 0).val := by
    show win1_3.index t (0 : Fin 2) * 10000 + 1 * (j 0).val = _; omega
  have hi1 : ((((cfg1.win 3).blk t).view.emb j) 1).val = (j 1).val := by
    show win1_3.index t (1 : Fin 2) * 64 + 1 * (j 1).val = _; omega
  exact blockValue1 V c t j _ hi0 hi1

/-- An index of the result array is in point t's block iff each coordinate is in the block's range on its axis. -/
theorem mem_block1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v46).slice (win1_3.rect t)).set ↔ _
  rw [View.set_slice_whole, Rect.mem_set_unit]
  exact Iff.rfl

/-- Row r of the result array lies in the block of point r / 10000, and every point writes its block back. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, e0, e1⟩ := blockIndex1 t
  refine ⟨t, flush1_3 t, ?_⟩
  rw [mem_block1]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- REGION 1 (bias and PReLU of the first layer): the result array holds `act` of the aggregated features and the
    two one-row matrices. -/
theorem region1 (c : Dev nD) :
    (dat1 V c).arrAt 3 cfg1.N = Cert.Spec.act (V c main_v43) (V c main_v44) (V c main_v45) := by
  exact (dat1 V c).arrAt_eq_of_cover 3 (Cert.Spec.act (V c main_v43) (V c main_v44) (V c main_v45))
    (fun t _ => flushed1_eq V c t) covered1

/-! ## Region 3: bias and PReLU of the second layer

The same body over the second layer's aggregated features and its own bias and slope rows; the same ten blocks. -/

/-- The second layer's body at one index (p, q) of its block, with k = (0, q): v = x0[p,q] + x1[0,q], kept where
    v ≥ 0 and scaled by x2[0,q] elsewhere. -/
theorem pay3_apply (x0 : Vec Ideal S10000x64 .f32) (x1 x2 : Vec Ideal S1x64 .f32) (j : S10000x64.Idx) (k : S1x64.Idx)
    (hk0 : (k 0).val = 0) (hk1 : (k 1).val = (j 1).val) :
    k3_pay1 x0 x1 x2 j = Scalar.select (FloatOps.cmpf (F := Ideal) (φ := .f32) .oge (x0 j + x1 k) (Ideal.ofBits .f32 0x00000000#32))
      (x0 j + x1 k) (x2 k * (x0 j + x1 k)) := by
  -- a one-row matrix broadcast along the rows is read at row 0 and the same column
  have hk : ∀ a : Fin S1x64.rank, (k a).val = if S1x64.size a = 1 then 0
      else (j ⟨a.val + (S10000x64.rank - S1x64.rank), by have := a.isLt; omega⟩).val := fun a =>
    match a with
    | ⟨0, _⟩ => by rw [if_pos (by rfl)]; exact hk0
    | ⟨1, _⟩ => by
      show (k 1).val = if (64 : Nat) = 1 then 0 else (j 1).val
      rw [if_neg (by decide)]; exact hk1
  unfold k3_pay1
  simp only [shapeCast_self]
  rw [ValueIdx.select_apply, ValueIdx.cmpf_apply, ValueIdx.mulf_apply, ValueIdx.addf_apply, ValueIdx.broadcast_apply,
    broadcastTo_apply x1 _ j k hk, broadcastTo_apply x2 _ j k hk]
  rfl

/-- The printed index maps of the second layer's region over its grid: the feature window and the result window at
    block (t, 0), the two one-row windows at block (0, 0). -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block t of the second layer's features is rows 10000·t … 10000·t + 9999 of their array. -/
theorem featBlock3 (c : Dev nD) (t : Fin cfg3.N) (y : S10000x64.Idx) (i : S100000x64.Idx)
    (h0 : (i 0).val = t.val * 10000 + (y 0).val) (h1 : (i 1).val = (y 1).val) :
    (iblk3 V c 0 t : Vec Ideal S10000x64 .f32) y = (V c main_v60 : S100000x64.Idx → EReal) i := by
  obtain ⟨e0, e1, -⟩ := blockIndex3 t
  show V c main_v60 (((cfg3.win 0).blk t).view.emb y) = V c main_v60 i
  refine congrArg _ (funext fun a => Fin.ext ?_)
  match a with
  | ⟨0, _⟩ => show win3_0.index t (0 : Fin 2) * 10000 + 1 * (y 0).val = (i 0).val; omega
  | ⟨1, _⟩ => show win3_0.index t (1 : Fin 2) * 64 + 1 * (y 1).val = (i 1).val; omega

/-- The second layer's bias window holds the whole one-row bias matrix, at every point. -/
theorem biasBlock3 (c : Dev nD) (t : Fin cfg3.N) (y : S1x64.Idx) (k : S1x64.Idx)
    (h0 : (k 0).val = (y 0).val) (h1 : (k 1).val = (y 1).val) :
    (iblk3 V c 1 t : Vec Ideal S1x64 .f32) y = (V c main_v61 : S1x64.Idx → EReal) k := by
  obtain ⟨-, -, e0, e1, -⟩ := blockIndex3 t
  show V c main_v61 (((cfg3.win 1).blk t).view.emb y) = V c main_v61 k
  refine congrArg _ (funext fun a => Fin.ext ?_)
  match a with
  | ⟨0, _⟩ => show win3_1.index t (0 : Fin 2) * 1 + 1 * (y 0).val = (k 0).val; omega
  | ⟨1, _⟩ => show win3_1.index t (1 : Fin 2) * 64 + 1 * (y 1).val = (k 1).val; omega

/-- The second layer's slope window holds the whole one-row slope matrix, at every point. -/
theorem slopeBlock3 (c : Dev nD) (t : Fin cfg3.N) (y : S1x64.Idx) (k : S1x64.Idx)
    (h0 : (k 0).val = (y 0).val) (h1 : (k 1).val = (y 1).val) :
    (iblk3 V c 2 t : Vec Ideal S1x64 .f32) y = (V c main_v62 : S1x64.Idx → EReal) k := by
  obtain ⟨-, -, -, -, e0, e1, -⟩ := blockIndex3 t
  show V c main_v62 (((cfg3.win 2).blk t).view.emb y) = V c main_v62 k
  refine congrArg _ (funext fun a => Fin.ext ?_)
  match a with
  | ⟨0, _⟩ => show win3_2.index t (0 : Fin 2) * 1 + 1 * (y 0).val = (k 0).val; omega
  | ⟨1, _⟩ => show win3_2.index t (1 : Fin 2) * 64 + 1 * (y 1).val = (k 1).val; omega

/-- The second layer's body at (p, q) of block t is `act` of its three arrays at (10000·t + p, q). -/
theorem blockValue3 (c : Dev nD) (t : Fin cfg3.N) (j : S10000x64.Idx) (i : S100000x64.Idx)
    (h0 : (i 0).val = t.val * 10000 + (j 0).val) (h1 : (i 1).val = (j 1).val) :
    k3_pay1 (iblk3 V c 0 t) (iblk3 V c 1 t) (iblk3 V c 2 t) j
      = Cert.Spec.act (V c main_v60) (V c main_v61) (V c main_v62) i := by
  rw [pay3_apply _ _ _ j (Cert.Spec.chanAt i) rfl h1, featBlock3 V c t j i h0 h1,
    biasBlock3 V c t _ (Cert.Spec.chanAt i) rfl rfl, slopeBlock3 V c t _ (Cert.Spec.chanAt i) rfl rfl]
  rfl

/-- What point t of the second layer's region writes back is block t of `act` of its three arrays as the region
    finds them. -/
theorem flushed3_eq (c : Dev nD) (t : Fin cfg3.N) :
    (dat3 V c).flushed 3 t = ((cfg3.win 3).blk t).view.read (Elt Ideal) (Cert.Spec.act (V c main_v60) (V c main_v61) (V c main_v62)) := by
  show (cfg3.win 3).cut (grid3.coords t) ((dat3 V c).after 3 t) = _
  rw [after3_3]
  unfold out3_3
  rw [View.canon_unit_zero zeroOffsets]
  simp only [View.ld_unit_zero (S := S10000x64) zeroOffsets, View.ld_unit_zero (S := S1x64) zeroOffsets]
  funext j
  obtain ⟨-, -, -, -, -, -, e0, e1⟩ := blockIndex3 t
  show k3_pay1 (iblk3 V c 0 t) (iblk3 V c 1 t) (iblk3 V c 2 t) j
    = Cert.Spec.act (V c main_v60) (V c main_v61) (V c main_v62) (((cfg3.win 3).blk t).view.emb j)
  have hj0 : (j 0).val < 10000 := (j 0).isLt
  have hj1 : (j 1).val < 64 := (j 1).isLt
  -- a coordinate of the array under the block: block index × block size + the coordinate inside the block
  have hi0 : ((((cfg3.win 3).blk t).view.emb j) 0).val = t.val * 10000 + (j 0).val := by
    show win3_3.index t (0 : Fin 2) * 10000 + 1 * (j 0).val = _; omega
  have hi1 : ((((cfg3.win 3).blk t).view.emb j) 1).val = (j 1).val := by
    show win3_3.index t (1 : Fin 2) * 64 + 1 * (j 1).val = _; omega
  exact blockValue3 V c t j _ hi0 hi1

/-- An index of the second layer's result array is in point t's block iff each coordinate is in the block's range
    on its axis. -/
theorem mem_block3 (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v63).slice (win3_3.rect t)).set ↔ _
  rw [View.set_slice_whole, Rect.mem_set_unit]
  exact Iff.rfl

/-- Row r of the second layer's result array lies in the block of point r / 10000, and every point writes its
    block back. -/
theorem covered3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by rw [show cfg3.N = 10 from N_3]; omega⟩, rfl⟩
  obtain ⟨-, -, -, -, -, -, e0, e1⟩ := blockIndex3 t
  refine ⟨t, flush3_3 t, ?_⟩
  rw [mem_block3]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 64 ≤ (i 1).val ∧ (i 1).val < win3_3.index t (1 : Fin 2) * 64 + 64
    omega

/-- REGION 3 (bias and PReLU of the second layer). -/
theorem region3 (c : Dev nD) :
    (dat3 V c).arrAt 3 cfg3.N = Cert.Spec.act (V c main_v60) (V c main_v61) (V c main_v62) := by
  exact (dat3 V c).arrAt_eq_of_cover 3 (Cert.Spec.act (V c main_v60) (V c main_v61) (V c main_v62))
    (fun t _ => flushed3_eq V c t) covered3

end Cert.KernelIdeal.Regions

end
-- ==== Proof.Whole.lean ====
/-
  The whole network as ONE function of the eight arguments: two layers, each the dense projection, the edge
  stage with the edge vectors the reference derives from the edge list (sources, destinations, symmetric weights),
  and the bias with the per-channel PReLU. Both programs are shown to end holding this function of their arguments.
-/
import proofs.«135357_j1623497638364_1_alg».proof.Proof.Glue
import proofs.«135357_j1623497638364_1_alg».proof.Proof.ReadP
import proofs.«135357_j1623497638364_1_alg».proof.Proof.Spec

noncomputable section

namespace Cert.Whole

open Cert.ReferenceIdeal Idealize.ShloMosaic
open Cert.ReferenceIdeal.ReadP (val_main_v3 val_main_v6 val_main_v29)

/-- One graph-convolution layer on the extended reals: act (agg (h·w)) b a over the edge list `x1`. -/
def layer (h : (⟨S100000x64, .f32⟩ : BufTy).Contents (Elt Ideal)) (w : (⟨S64x64, .f32⟩ : BufTy).Contents (Elt Ideal))
    (b a : (⟨S64, .f32⟩ : BufTy).Contents (Elt Ideal)) (x1 : (⟨S2x1200000, .i32⟩ : BufTy).Contents (Elt Ideal)) :
    (⟨S100000x64, .f32⟩ : BufTy).Contents (Elt Ideal) :=
  Cert.Spec.act
    (Cert.Glue.agg (F := Ideal) (Cert.Spec.lin h w) (val_main_v3 (F := Ideal) x1) (val_main_v6 (F := Ideal) x1) (val_main_v29 (F := Ideal) x1))
    (Cert.Spec.row b) (Cert.Spec.row a)

/-- The two layers: features `x0`, edge list `x1`, and per layer the weights, the bias and the slope. -/
def net (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 x4 : (⟨S64, .f32⟩ : BufTy).Contents (Elt Ideal))
    (x5 : (⟨S64x64, .f32⟩ : BufTy).Contents (Elt Ideal)) (x6 x7 : (⟨S64, .f32⟩ : BufTy).Contents (Elt Ideal)) :
    (⟨S100000x64, .f32⟩ : BufTy).Contents (Elt Ideal) :=
  layer (layer x0 x2 x3 x4 x1) x5 x6 x7 x1

end Cert.Whole

end
-- ==== Proof.Walk.lean ====
/-
  The kernel's program ends holding `Whole.net` of its arguments: the walk through @main's segment boundaries.
  Each region's result array is its layer stage of what the region finds (the projection `lin`, or `act`); each
  host stretch's results are the edge stage and the one-row matrices (the reshape of a per-channel vector reads
  entry q at (0, q)); the arguments and the edge vectors are kept from the launch to where they are read.
-/
import proofs.«135357_j1623497638364_1_alg».proof.Proof.KHost
import proofs.«135357_j1623497638364_1_alg».proof.Proof.RegionLin
import proofs.«135357_j1623497638364_1_alg».proof.Proof.RegionAct
import proofs.«135357_j1623497638364_1_alg».proof.Proof.Whole

set_option maxRecDepth 16384

noncomputable section

namespace Cert.KernelIdeal.Walk

open Cert.KernelIdeal Cert.KernelIdeal.Gen Cert.KernelIdeal.KHost Cert.KernelIdeal.Regions
open Idealize.ShloMosaic Idealize.ShloMosaic.TcCoe Idealize.SL.Sem
open Cert.ReferenceIdeal.ReadP (val_main_v3 val_main_v6 val_main_v29)

variable (m : (ℓ : Loc nD τ sig) → Buf (Elt Ideal) ℓ) (ρ : Dev nD → PrngReg)

/-- A per-channel vector reshaped to one row: entry (0, q) is entry q (the two have the same row-major position). -/
theorem reshape_row (b : S64.Idx → EReal) : shapeCast S1x64 b Facts₀.shapeCasts_S64_S1x64 = Cert.Spec.row b := by
  funext j
  refine (shapeCast_apply b Facts₀.shapeCasts_S64_S1x64 j (fun a => match a with | ⟨0, _⟩ => ⟨(j 1).val, (j 1).isLt⟩) ?_).trans rfl
  rw [Shape.rowMajor_val_one, Shape.rowMajor_val_two]
  show (j 1).val = (j 0).val * 64 + (j 1).val
  have h0 : (j 0).val < 1 := (j 0).isLt
  omega

/-- After region 0: the first projection of the launch features and weights. -/
theorem proj1 (c : Dev nD) : W4 m ρ c (Proc.devRef .tc main_v30)
    = Cert.Spec.lin (m ((c : Thread nD τ).loc main_arg0)) (m ((c : Thread nD τ).loc main_arg2)) := by
  refine (W4_arr m ρ c 2).trans ((region0 (V3 m ρ) c).trans ?_)
  show Cert.Spec.lin (W3 m ρ c (Proc.devRef .tc main_arg0)) (W3 m ρ c (Proc.devRef .tc main_arg2)) = _
  rw [W3_arg0, W3_arg2]

/-- After region 1: the first layer. -/
theorem act1 (c : Dev nD) : W6 m ρ c (Proc.devRef .tc main_v46)
    = Cert.Whole.layer (m ((c : Thread nD τ).loc main_arg0)) (m ((c : Thread nD τ).loc main_arg2)) (m ((c : Thread nD τ).loc main_arg3))
        (m ((c : Thread nD τ).loc main_arg4)) (m ((c : Thread nD τ).loc main_arg1)) := by
  refine (W6_arr m ρ c 3).trans ((region1 (V5 m ρ) c).trans ?_)
  show Cert.Spec.act (W5 m ρ c (Proc.devRef .tc main_v43)) (W5 m ρ c (Proc.devRef .tc main_v44)) (W5 m ρ c (Proc.devRef .tc main_v45)) = _
  rw [W5_v43, W5_v44, W5_v45, proj1, W4_v3, W4_v6, W4_v29, W4_arg3, W4_arg4, reshape_row, reshape_row]
  rfl

/-- After region 2: the second projection, of the first layer's result. -/
theorem proj2 (c : Dev nD) : W7 m ρ c (Proc.devRef .tc main_v47)
    = Cert.Spec.lin (Cert.Whole.layer (m ((c : Thread nD τ).loc main_arg0)) (m ((c : Thread nD τ).loc main_arg2)) (m ((c : Thread nD τ).loc main_arg3))
        (m ((c : Thread nD τ).loc main_arg4)) (m ((c : Thread nD τ).loc main_arg1))) (m ((c : Thread nD τ).loc main_arg5)) := by
  refine (W7_arr m ρ c 2).trans ((region2 (V6 m ρ) c).trans ?_)
  show Cert.Spec.lin (W6 m ρ c (Proc.devRef .tc main_v46)) (W6 m ρ c (Proc.devRef .tc main_arg5)) = _
  rw [act1, W6_arg5]

/-- After region 3: the network. -/
theorem out_eq (c : Dev nD) : W9 m ρ c (Proc.devRef .tc main_v63)
    = Cert.Whole.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W9_arr m ρ c 3).trans ((region3 (V8 m ρ) c).trans ?_)
  show Cert.Spec.act (W8 m ρ c (Proc.devRef .tc main_v60)) (W8 m ρ c (Proc.devRef .tc main_v61)) (W8 m ρ c (Proc.devRef .tc main_v62)) = _
  rw [W8_v60, W8_v61, W8_v62, proj2, W7_v3, W7_v6, W7_v29, W7_arg6, W7_arg7, reshape_row, reshape_row]
  rfl

end Cert.KernelIdeal.Walk

end
-- ==== Proof.RefSide.lean ====
/-
  The reference computes `Whole.net` of its arguments. Its stages are read one operation at a time (Proof/ReadP.lean);
  what is shown here, stage by stage: a dot_general is the projection `lin`;
  the gather / scale / scatter-add stretch is the edge stage `agg` (the same operations: by unfolding the stages'
  names); bias, compare, multiply and select are `act` index by index, the two broadcasts of a per-channel
  vector reading entry q at (r, q).
-/
import proofs.«135357_j1623497638364_1_alg».proof.Proof.RunP
import proofs.«135357_j1623497638364_1_alg».proof.Proof.ReadP
import proofs.«135357_j1623497638364_1_alg».proof.Proof.Whole

noncomputable section

namespace Cert.ReferenceIdeal.RefSide

open Cert.ReferenceIdeal Cert.ReferenceIdeal.ReadP Idealize.ShloMosaic

/-- The first projection. -/
theorem lin_v30 (x0 : (⟨S100000x64, .f32⟩ : BufTy).Contents (Elt Ideal)) (x2 : (⟨S64x64, .f32⟩ : BufTy).Contents (Elt Ideal)) :
    val_main_v30 (F := Ideal) x0 x2 = Cert.Spec.lin x0 x2 := by
  funext i
  rw [val_main_v30_apply]
  rfl

/-- The first edge stage. -/
theorem agg_v43 (x0 : (⟨S100000x64, .f32⟩ : BufTy).Contents (Elt Ideal)) (x1 : (⟨S2x1200000, .i32⟩ : BufTy).Contents (Elt Ideal))
    (x2 : (⟨S64x64, .f32⟩ : BufTy).Contents (Elt Ideal)) :
    val_main_v43 (F := Ideal) x0 x1 x2
      = Cert.Glue.agg (F := Ideal) (val_main_v30 (F := Ideal) x0 x2) (val_main_v3 (F := Ideal) x1) (val_main_v6 (F := Ideal) x1) (val_main_v29 (F := Ideal) x1) := by
  unfold val_main_v43 val_main_v41 val_main_cst_8 val_main_v42 val_main_v40 val_main_v37 val_main_v36 val_main_v35 val_main_v32
    val_main_v31 val_main_c_6 val_main_v34 val_main_v33 val_main_c_7 val_main_v39 val_main_v38 Cert.Glue.agg
  rfl

/-- The first bias and PReLU. -/
theorem act_v52 (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 x4 : (⟨S64, .f32⟩ : BufTy).Contents (Elt Ideal)) :
    val_main_v52 (F := Ideal) x0 x1 x2 x3 x4
      = Cert.Spec.act (val_main_v43 (F := Ideal) x0 x1 x2) (Cert.Spec.row x3) (Cert.Spec.row x4) := by
  funext i
  rw [val_main_v52_apply, val_main_v48_apply, val_main_v51_apply, val_main_v46_apply, val_main_v45_apply, val_main_v44_apply,
    val_main_v50_apply, val_main_v49_apply, val_main_v47_apply, val_main_cst_9_apply]
  rfl

/-- The first layer. -/
theorem layer1 (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 x4 : (⟨S64, .f32⟩ : BufTy).Contents (Elt Ideal)) :
    val_main_v52 (F := Ideal) x0 x1 x2 x3 x4 = Cert.Whole.layer x0 x2 x3 x4 x1 := by
  rw [act_v52, agg_v43, lin_v30]
  rfl

/-- The second projection. -/
theorem lin_v53 (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 x4 : (⟨S64, .f32⟩ : BufTy).Contents (Elt Ideal))
    (x5 : (⟨S64x64, .f32⟩ : BufTy).Contents (Elt Ideal)) :
    val_main_v53 (F := Ideal) x0 x1 x2 x3 x4 x5 = Cert.Spec.lin (val_main_v52 (F := Ideal) x0 x1 x2 x3 x4) x5 := by
  funext i
  rw [val_main_v53_apply]
  rfl

/-- The second edge stage. -/
theorem agg_v66 (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 x4 : (⟨S64, .f32⟩ : BufTy).Contents (Elt Ideal))
    (x5 : (⟨S64x64, .f32⟩ : BufTy).Contents (Elt Ideal)) :
    val_main_v66 (F := Ideal) x0 x1 x2 x3 x4 x5
      = Cert.Glue.agg (F := Ideal) (val_main_v53 (F := Ideal) x0 x1 x2 x3 x4 x5) (val_main_v3 (F := Ideal) x1) (val_main_v6 (F := Ideal) x1) (val_main_v29 (F := Ideal) x1) := by
  unfold val_main_v66 val_main_v64 val_main_cst_12 val_main_v65 val_main_v63 val_main_v60 val_main_v59 val_main_v58 val_main_v55
    val_main_v54 val_main_c_10 val_main_v57 val_main_v56 val_main_c_11 val_main_v62 val_main_v61 Cert.Glue.agg
  rfl

/-- The second bias and PReLU. -/
theorem act_v75 (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 x4 : (⟨S64, .f32⟩ : BufTy).Contents (Elt Ideal))
    (x5 : (⟨S64x64, .f32⟩ : BufTy).Contents (Elt Ideal)) (x6 x7 : (⟨S64, .f32⟩ : BufTy).Contents (Elt Ideal)) :
    val_main_v75 (F := Ideal) x0 x1 x2 x3 x4 x5 x6 x7
      = Cert.Spec.act (val_main_v66 (F := Ideal) x0 x1 x2 x3 x4 x5) (Cert.Spec.row x6) (Cert.Spec.row x7) := by
  funext i
  rw [val_main_v75_apply, val_main_v71_apply, val_main_v74_apply, val_main_v69_apply, val_main_v68_apply, val_main_v67_apply,
    val_main_v73_apply, val_main_v72_apply, val_main_v70_apply, val_main_cst_13_apply]
  rfl

/-- The reference's result is the network of its arguments. -/
theorem result_eq (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 x4 : (⟨S64, .f32⟩ : BufTy).Contents (Elt Ideal))
    (x5 : (⟨S64x64, .f32⟩ : BufTy).Contents (Elt Ideal)) (x6 x7 : (⟨S64, .f32⟩ : BufTy).Contents (Elt Ideal)) :
    val_main_v75 (F := Ideal) x0 x1 x2 x3 x4 x5 x6 x7 = Cert.Whole.net x0 x1 x2 x3 x4 x5 x6 x7 := by
  rw [act_v75, agg_v66, lin_v53, layer1]
  rfl

end Cert.ReferenceIdeal.RefSide

end
-- ==== Proof.lean ====
/-
  Two graph-convolution layers over 100000 nodes and 1300000 directed edges (the 1200000 given ones and a self
  loop per node): per layer h ↦ act (agg (h·W)) b a, with `agg` the gather of the rows h[src], their scaling by the
  symmetric weights norm[e] = dinv[src e]·dinv[dst e] and the scatter-add into the rows dst, and `act` the bias
  followed by the per-channel PReLU. The kernel computes each projection h·W in ten row blocks of 10000 nodes with
  the operands cast to bf16 and an f32 accumulator from zero, and each bias + PReLU in the same ten blocks; the
  reference computes them as one dot_general and as whole-array operations.

  On the extended reals a change of float format is the identity and a product into a zero accumulator is the plain
  sum, so a block of the kernel's projection is the same block of h·W, entry (r, q) the sum over k of h[r,k]·W[k,q]:
  no law beyond that is used, and finiteness of the inputs is never needed. The edge stage and the weights are the
  same host operations in both programs and are carried as one function, never opened.

  Frames: the two kernel programs' are the generated ones; the reference's is its run with the result dropped.
  The kernel program's run is taken with the whole last segment boundary in its post (Proof/KRun.lean), the
  result read there (Proof/Walk.lean over Proof/KHost.lean and the region lemmas Proof/RegionLin.lean,
  Proof/RegionAct.lean); the reference's result is the same function `Whole.net` (Proof/RefSide.lean).
-/
import proofs.«135357_j1623497638364_1_alg».proof.Defs
import proofs.«135357_j1623497638364_1_alg».proof.Proof.Gen.Kernel
import proofs.«135357_j1623497638364_1_alg».proof.Proof.Gen.Kernel.Skeleton
import proofs.«135357_j1623497638364_1_alg».proof.Proof.Gen.Kernel.Launch
import proofs.«135357_j1623497638364_1_alg».proof.Proof.Gen.Kernel.Points
import proofs.«135357_j1623497638364_1_alg».proof.Proof.Gen.Kernel.Frame
import proofs.«135357_j1623497638364_1_alg».proof.Proof.Gen.KernelIdeal
import proofs.«135357_j1623497638364_1_alg».proof.Proof.Gen.KernelIdeal.Skeleton
import proofs.«135357_j1623497638364_1_alg».proof.Proof.Gen.KernelIdeal.Launch
import proofs.«135357_j1623497638364_1_alg».proof.Proof.Gen.KernelIdeal.Points
import proofs.«135357_j1623497638364_1_alg».proof.Proof.Gen.KernelIdeal.Frame
import proofs.«135357_j1623497638364_1_alg».proof.Proof.Gen.ReferenceIdeal
import proofs.«135357_j1623497638364_1_alg».proof.Proof.Gen.Pre_finite_inputs
import proofs.«135357_j1623497638364_1_alg».proof.Proof.KRun
import proofs.«135357_j1623497638364_1_alg».proof.Proof.Walk
import proofs.«135357_j1623497638364_1_alg».proof.Proof.RunP
import proofs.«135357_j1623497638364_1_alg».proof.Proof.ReadP
import proofs.«135357_j1623497638364_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result array at `Whole.net` of the arguments, which agree. -/
theorem algebraic : Cert.algebraic_KernelIdeal_ReferenceIdeal := by
  intro m ρ m' ρ' _ hagree
  refine ⟨fun c => Cert.Whole.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v63 (by decide))).trans (Cert.KernelIdeal.Walk.out_eq m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c)⟩
  · refine (θ_run Cert.ReferenceIdeal.defs _ _).mono (fun r h c => ⟨?_, (h c).2⟩)
      (Cert.ReferenceIdeal.ValueP.run (F := Ideal) m' ρ')
    refine ((h c).1.trans ((Cert.ReferenceIdeal.ReadP.val_main_v75_eq m' c).trans
      (Cert.ReferenceIdeal.RefSide.result_eq _ _ _ _ _ _ _ _))).trans ?_
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
